-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S40 .f32) (main_v48 : IVec S_ 1) (main_v49 : FVec F S40x128 .f32) (main_v50 : FVec F S40x128 .f32) : IVec S_ 1 :=
  let main_v51 : IVec S40x128 1 := cmpf .olt main_v49 main_v50
  let main_c_19 : IVec S_ 1 := constantI S_ 1 1#1
  let main_v52 : IVec S_ 1 := (fun x v => Host.reduce IntOp.andi x v reducesTo_S40x128_S_d0_1 h_S_) main_v51 main_c_19
  let main_v53 : IVec S_ 1 := andi main_v48 main_v52
  let main_v54 : FVec F S40 .f32 := Host.absf main_arg11
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg7 : FVec F S64 .f32) (main_arg8 : FVec F S128x64 .f32) (main_arg9 : FVec F S128 .f32) (main_arg10 : FVec F S40x128 .f32) (main_arg11 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S40x128 .f32 := Host.absf main_arg10
  let main_cst_18 : FVec F S_ .f32 := constant S_ .f32 0x7F800000#32
  let main_v50 : FVec F S40x128 .f32 := broadcastInDim S40x128 ![] bcast_S_S40x128 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S128x64 .f32) (main_arg9 : FVec F S128 .f32) (main_arg10 : FVec F S40x128 .f32) (main_arg11 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S64x128 .f32) (main_arg3 : FVec F S64 .f32) (main_arg4 : FVec F S64x64 .f32) (main_arg5 : FVec F S64 .f32) (main_arg6 : FVec F S64x64 .f32) (main_arg7 : FVec F S64 .f32) (main_arg8 : FVec F S128x64 .f32) (main_arg9 : FVec F S128 .f32) (main_arg10 : FVec F S40x128 .f32) (main_arg11 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S128x40 : Shape := ⟨2, ![128, 40]⟩
abbrev S1x64 : Shape := ⟨2, ![1, 64]⟩
abbrev S1x128 : Shape := ⟨2, ![1, 128]⟩
abbrev S1x40 : Shape := ⟨2, ![1, 40]⟩
abbrev S10000x64 : Shape := ⟨2, ![10000, 64]⟩
abbrev S2000x128 : Shape := ⟨2, ![2000, 128]⟩
abbrev S2000x64 : Shape := ⟨2, ![2000, 64]⟩
abbrev S200x10000 : Shape := ⟨2, ![200, 10000]⟩
abbrev S200x64 : Shape := ⟨2, ![200, 64]⟩
abbrev S10000x40 : Shape := ⟨2, ![10000, 40]⟩
abbrev S200x128 : Shape := ⟨2, ![200, 128]⟩
abbrev S200x40 : Shape := ⟨2, ![200, 40]⟩

abbrev nBuf : Space → Nat
  | .hbm => 23
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S128x64, .f32⟩
  | .hbm, ⟨13, _⟩ => ⟨S64x128, .f32⟩
  | .hbm, ⟨14, _⟩ => ⟨S128x40, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x128, .f32⟩
  | .hbm, ⟨19, _⟩ => ⟨S1x40, .f32⟩
  | .hbm, ⟨20, _⟩ => ⟨S10000x64, .f32⟩
  | .hbm, ⟨21, _⟩ => ⟨S10000x64, .f32⟩
  | .hbm, ⟨22, _⟩ => ⟨S10000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S200x10000, .f32⟩
  | .local _ .vmem, ⟨9, _⟩ => ⟨S200x10000, .f32⟩
  | .local _ .vmem, ⟨10, _⟩ => ⟨S10000x64, .f32⟩
  | .local _ .vmem, ⟨11, _⟩ => ⟨S64x64, .f32⟩
  | .local _ .vmem, ⟨12, _⟩ => ⟨S1x64, .f32⟩
  | .local _ .vmem, ⟨13, _⟩ => ⟨S200x64, .f32⟩
  | .local _ .vmem, ⟨14, _⟩ => ⟨S200x64, .f32⟩
  | .local _ .vmem, ⟨15, _⟩ => ⟨S200x10000, .f32⟩
  | .local _ .vmem, ⟨16, _⟩ => ⟨S200x10000, .f32⟩
  | .local _ .vmem, ⟨17, _⟩ => ⟨S10000x64, .f32⟩
  | .local _ .vmem, ⟨18, _⟩ => ⟨S200x128, .f32⟩
  | .local _ .vmem, ⟨19, _⟩ => ⟨S200x128, .f32⟩
  | .local _ .vmem, ⟨20, _⟩ => ⟨S64x128, .f32⟩
  | .local _ .vmem, ⟨21, _⟩ => ⟨S1x128, .f32⟩
  | .local _ .vmem, ⟨22, _⟩ => ⟨S128x40, .f32⟩
  | .local _ .vmem, ⟨23, _⟩ => ⟨S1x40, .f32⟩
  | .local _ .vmem, ⟨24, _⟩ => ⟨S200x40, .f32⟩
  | .local _ .vmem, ⟨25, _⟩ => ⟨S200x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S200x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S64x128_S128x64_1_0 : S64x128.Transposes [1, 0] S128x64
  transposes_S128x64_S64x128_1_0 : S128x64.Transposes [1, 0] S64x128
  transposes_S40x128_S128x40_1_0 : S40x128.Transposes [1, 0] S128x40
  shapeCasts_S64_S1x64 : S64.ShapeCasts S1x64
  shapeCasts_S128_S1x128 : S128.ShapeCasts S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  inb_S200x10000_S200x10000_0_0 : ∀ a, (![0, 0] : Fin 2 → Nat) a + S200x10000.size a ≤ S200x10000.size a
  h_S200x10000 : 0 < S200x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  inb_S200x40_S200x40_0_0 : ∀ a, (![0, 0] : Fin 2 → Nat) a + S200x40.size a ≤ S200x40.size a
  h_S200x40 : 0 < S200x40.numel
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S200x64_S64x128_S200x128_1_0_0_1_n_n_wf : DotDims.WF S200x64 S64x128 S200x128 [1] [0] [0] [1] [] []
  dot_S200x128_S128x40_S200x40_1_0_0_1_n_n_wf : DotDims.WF S200x128 S128x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S10000x64.size a
  hwx0_5 : ∀ i : grid0.Coords, EltTy.bits .f32 = 32 ∨ (Rect.block (s := S10000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .f32 = 32 ∨ (Rect.block (s := S10000x64) S200x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x40.size a ≤ S10000x40.size a
  hwx2_7 : ∀ i : grid2.Coords, EltTy.bits .f32 = 32 ∨ (Rect.block (s := S10000x40) S200x40.size (cc2_transform_7 i) (hinb2_7 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x128_S128x40_S200x40_1_0_0_1_n_n : DotDims S200x128 S128x40 S200x40 where
  lhsContracting := [1]
  rhsContracting := [0]
  lhsNonContracting := [0]
  rhsNonContracting := [1]
  lhsBatch := []
  rhsBatch := []
  wf := dot_S200x128_S128x40_S200x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S200x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S200x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S128 : Shape := ⟨1, ![128]⟩
abbrev S40x128 : Shape := ⟨2, ![40, 128]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S1x128 : Shape := ⟨2, ![1, 128]⟩
abbrev S128x40 : Shape := ⟨2, ![128, 40]⟩
abbrev S10000x40 : Shape := ⟨2, ![10000, 40]⟩
abbrev S1x40 : Shape := ⟨2, ![1, 40]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S40x128, .f32⟩
  | .hbm, ⟨11, _⟩ => ⟨S40, .f32⟩
  | .hbm, ⟨12, _⟩ => ⟨S128x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S1x64, .f32⟩
  | .hbm, ⟨27, _⟩ => ⟨S10000x64, .f32⟩
  | .hbm, ⟨28, _⟩ => ⟨S10000x64, .f32⟩
  | .hbm, ⟨29, _⟩ => ⟨S10000x64, .f32⟩
  | .hbm, ⟨30, _⟩ => ⟨S64x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S128x40, .f32⟩
  | .hbm, ⟨37, _⟩ => ⟨S10000x40, .f32⟩
  | .hbm, ⟨38, _⟩ => ⟨S1x40, .f32⟩
  | .hbm, ⟨39, _⟩ => ⟨S10000x40, .f32⟩
  | .hbm, ⟨40, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S128x64_S64x128_1_0 : S128x64.Transposes [1, 0] S64x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S40x128_S128x40_1_0 : S40x128.Transposes [1, 0] S128x40
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []
  dot_S10000x128_S128x40_S10000x40_1_0_0_1_n_n_wf : DotDims.WF S10000x128 S128x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.Spec.lean ====
import Idealize.ShloMosaic.PureOps.Ideal.Laws
import Idealize.ShloMosaic.Lib.ValueIdx
import Idealize.ShloMosaic.Lib.Pipeline.Value
import Idealize.ShloMosaic.Lib.ValueLayout

/-!
# An adapter around two hypergraph propagations, one output row at a time

The network is a chain of three row-local stages over the extended reals. With `x` the node features (10000 × 128),
`H` the dense propagation matrix (10000 × 10000) and every weight matrix stored rows × columns as it is multiplied:

* stage A, row `i`:  `a i = (x i · Wdᵀ + bd) · W1 + b1`                      (64 numbers from the 128 of `x i`);
* stage B, row `i`:  `b i = max (H i · a) 0 · W2 + b2`                      (64 numbers from row `i` of `H` and ALL of `a`);
* stage O, row `i`:  `o i = (x i + ((H i · b) · Wuᵀ + bu)) · Wcᵀ + bc`       (40 numbers from rows `i` of `H` and `x` and ALL of `b`).

Row `i` of a stage depends on its row-blocked operands only through THEIR row `i`; that is why any tiling of the rows
computes the same array. The sums are written in the order the operations are applied, so no law of the extended reals
is needed to compare two programs that apply the same operations: a matrix product is the sum over the contracted
coordinate, a bias is added after it, the rectifier is `max · 0`.
-/

noncomputable section

namespace Cert.Hgnn

open Idealize.ShloMosaic Idealize.ShloMosaic.ValueIdx

/-- A matrix of extended reals, indexed as the arrays of the programs are. -/
abbrev Arr (m n : ℕ) : Type := (⟨2, ![m, n]⟩ : Shape).Idx → EReal

/-- Stage A, one row: the down projection `x · Wdᵀ + bd` followed by `· W1 + b1`. -/
def rowA (x : Fin 128 → EReal) (wdt : Fin 128 → Fin 64 → EReal) (bd : Fin 64 → EReal)
    (w1 : Fin 64 → Fin 64 → EReal) (b1 : Fin 64 → EReal) (n : Fin 64) : EReal :=
  (∑ k : Fin 64, ((∑ l : Fin 128, x l * wdt l k) + bd k) * w1 k n) + b1 n

/-- Stage B, one row: the row of `H` against all of `a`, rectified, then `· W2 + b2`. -/
def rowB (h : Fin 10000 → EReal) (a : Fin 10000 → Fin 64 → EReal) (w2 : Fin 64 → Fin 64 → EReal)
    (b2 : Fin 64 → EReal) (n : Fin 64) : EReal :=
  (∑ k : Fin 64, max (∑ l : Fin 10000, h l * a l k) 0 * w2 k n) + b2 n

/-- Stage O, one row: the row of `H` against all of `b`, the up projection `· Wuᵀ + bu`, the residual `x +`, and the
    classifier `· Wcᵀ + bc`. -/
def rowO (h : Fin 10000 → EReal) (b : Fin 10000 → Fin 64 → EReal) (x : Fin 128 → EReal)
    (wut : Fin 64 → Fin 128 → EReal) (bu : Fin 128 → EReal) (wct : Fin 128 → Fin 40 → EReal) (bc : Fin 40 → EReal)
    (n : Fin 40) : EReal :=
  (∑ k : Fin 128, (x k + ((∑ q : Fin 64, (∑ l : Fin 10000, h l * b l q) * wut q k) + bu k)) * wct k n) + bc n

/-- Stage A as an array: row `i` from row `i` of `x`; the biases are rows `[1, 64]`. -/
def stageA (x : Arr 10000 128) (wdt : Arr 128 64) (bd : Arr 1 64) (w1 : Arr 64 64) (b1 : Arr 1 64) : Arr 10000 64 :=
  fun j => rowA (fun l => x (ix2 (j 0) l)) (fun l k => wdt (ix2 l k)) (fun k => bd (ix2 (0 : Fin 1) k))
    (fun k n => w1 (ix2 k n)) (fun n => b1 (ix2 (0 : Fin 1) n)) (j 1)

/-- Stage B as an array: row `i` from row `i` of `H` and the whole of `a`. -/
def stageB (h : Arr 10000 10000) (a : Arr 10000 64) (w2 : Arr 64 64) (b2 : Arr 1 64) : Arr 10000 64 :=
  fun j => rowB (fun l => h (ix2 (j 0) l)) (fun l k => a (ix2 l k)) (fun k n => w2 (ix2 k n))
    (fun n => b2 (ix2 (0 : Fin 1) n)) (j 1)

/-- Stage O as an array: row `i` from rows `i` of `H` and `x` and the whole of `b`. -/
def stageO (h : Arr 10000 10000) (b : Arr 10000 64) (x : Arr 10000 128) (wut : Arr 64 128) (bu : Arr 1 128)
    (wct : Arr 128 40) (bc : Arr 1 40) : Arr 10000 40 :=
  fun j => rowO (fun l => h (ix2 (j 0) l)) (fun l q => b (ix2 l q)) (fun k => x (ix2 (j 0) k))
    (fun q k => wut (ix2 q k)) (fun k => bu (ix2 (0 : Fin 1) k)) (fun k n => wct (ix2 k n))
    (fun n => bc (ix2 (0 : Fin 1) n)) (j 1)

/-- A row `[1, n]` repeated down `m` rows reads, at `(p, c)`, the row's entry `c`. -/
theorem broadcastTo_row_apply {α : Type} {m n : ℕ} (v : (⟨2, ![1, n]⟩ : Shape).Idx → α)
    (h : (⟨2, ![1, n]⟩ : Shape).Broadcasts ⟨2, ![m, n]⟩) (p : Fin m) (c : Fin n) :
    broadcastTo ⟨2, ![m, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.Hgnn

end
-- ==== Proof.Payloads.lean ====
import proofs.«148248_g13365938225258_cont_week2b_87_3_alg».proof.Proof.Gen.KernelIdeal.Skeleton
import proofs.«148248_g13365938225258_cont_week2b_87_3_alg».proof.Proof.LibPlainMatmul
import proofs.«148248_g13365938225258_cont_week2b_87_3_alg».proof.Proof.Spec

/-!
# What each kernel body stores, entry by entry

Each of the three bodies loads whole blocks, computes and stores one block. At the extended reals the stored block's
entry `(p, n)` is the stage's row function of row `p` of the row-blocked operands and of the whole of the others:
a matrix product into the zero accumulator is the sum over the contracted coordinate, a bias row `[1, n]` repeated
down the rows adds its entry `n`, the rectifier is `max · 0`.
-/

noncomputable section

namespace Cert.Hgnn

open Idealize.ShloMosaic Idealize.ShloMosaic.ValueIdx Cert.KernelIdeal Cert.KernelIdeal.Gen

/-! ## The six matrix products of the bodies, each at an entry -/

theorem mm_2000_128_64 (l : FVec Ideal S2000x128 .f32) (r : FVec Ideal S128x64 .f32) (p : Fin 2000) (n : Fin 64) :
    matmul dot_S2000x128_S128x64_S2000x64_1_0_0_1_n_n none l r (constant S2000x64 .f32 0x00000000#32) (ix2 p n)
      = ∑ k : Fin 128, l (ix2 p k) * r (ix2 k n) :=
  PlainMatmul.matmul_plain_zero_apply 2000 128 64 none l r p n

theorem mm_2000_64_64 (l : FVec Ideal S2000x64 .f32) (r : FVec Ideal S64x64 .f32) (p : Fin 2000) (n : Fin 64) :
    matmul dot_S2000x64_S64x64_S2000x64_1_0_0_1_n_n none l r (constant S2000x64 .f32 0x00000000#32) (ix2 p n)
      = ∑ k : Fin 64, l (ix2 p k) * r (ix2 k n) :=
  PlainMatmul.matmul_plain_zero_apply 2000 64 64 none l r p n

theorem mm_200_10000_64 (l : FVec Ideal S200x10000 .f32) (r : FVec Ideal S10000x64 .f32) (p : Fin 200) (n : Fin 64) :
    matmul dot_S200x10000_S10000x64_S200x64_1_0_0_1_n_n none l r (constant S200x64 .f32 0x00000000#32) (ix2 p n)
      = ∑ k : Fin 10000, l (ix2 p k) * r (ix2 k n) :=
  PlainMatmul.matmul_plain_zero_apply 200 10000 64 none l r p n

theorem mm_200_64_64 (l : FVec Ideal S200x64 .f32) (r : FVec Ideal S64x64 .f32) (p : Fin 200) (n : Fin 64) :
    matmul dot_S200x64_S64x64_S200x64_1_0_0_1_n_n none l r (constant S200x64 .f32 0x00000000#32) (ix2 p n)
      = ∑ k : Fin 64, l (ix2 p k) * r (ix2 k n) :=
  PlainMatmul.matmul_plain_zero_apply 200 64 64 none l r p n

theorem mm_200_64_128 (l : FVec Ideal S200x64 .f32) (r : FVec Ideal S64x128 .f32) (p : Fin 200) (n : Fin 128) :
    matmul dot_S200x64_S64x128_S200x128_1_0_0_1_n_n none l r (constant S200x128 .f32 0x00000000#32) (ix2 p n)
      = ∑ k : Fin 64, l (ix2 p k) * r (ix2 k n) :=
  PlainMatmul.matmul_plain_zero_apply 200 64 128 none l r p n

theorem mm_200_128_40 (l : FVec Ideal S200x128 .f32) (r : FVec Ideal S128x40 .f32) (p : Fin 200) (n : Fin 40) :
    matmul dot_S200x128_S128x40_S200x40_1_0_0_1_n_n none l r (constant S200x40 .f32 0x00000000#32) (ix2 p n)
      = ∑ k : Fin 128, l (ix2 p k) * r (ix2 k n) :=
  PlainMatmul.matmul_plain_zero_apply 200 128 40 none l r p n

/-! ## The three stored blocks -/

/-- The first body's block, entry `(p, n)`: stage A's row of row `p` of the loaded `x` block. -/
theorem pay0_apply (x0 : Vec Ideal S2000x128 .f32) (x1 : Vec Ideal S128x64 .f32) (x2 : Vec Ideal S1x64 .f32)
    (x3 : Vec Ideal S64x64 .f32) (x4 : Vec Ideal S1x64 .f32) (p : Fin 2000) (n : Fin 64) :
    k0_pay1 (F := Ideal) x0 x1 x2 x3 x4 (ix2 p n)
      = rowA (fun l => x0 (ix2 p l)) (fun l k => x1 (ix2 l k)) (fun k => x2 (ix2 (0 : Fin 1) k))
          (fun k n => x3 (ix2 k n)) (fun n => x4 (ix2 (0 : Fin 1) n)) n := by
  unfold k0_pay1 rowA
  simp only [addf_apply, mm_2000_64_64, mm_2000_128_64, broadcastTo_row_apply, shapeCast_self]

/-- The second body's block, entry `(p, n)`: stage B's row of row `p` of the loaded `H` block and the whole of `a`. -/
theorem pay1_apply (x0 : Vec Ideal S200x10000 .f32) (x1 : Vec Ideal S10000x64 .f32) (x2 : Vec Ideal S64x64 .f32)
    (x3 : Vec Ideal S1x64 .f32) (p : Fin 200) (n : Fin 64) :
    k1_pay1 (F := Ideal) x0 x1 x2 x3 (ix2 p n)
      = rowB (fun l => x0 (ix2 p l)) (fun l k => x1 (ix2 l k)) (fun k n => x2 (ix2 k n))
          (fun n => x3 (ix2 (0 : Fin 1) n)) n := by
  unfold k1_pay1 rowB
  have hz : (FloatOps.ofBits FTy.f32 0x00000000#32 : Ideal .f32) = (0 : EReal) := Ideal.ofBits_zero_f32
  simp only [addf_apply, maximumf_apply, broadcast_apply, mm_200_64_64, mm_200_10000_64, broadcastTo_row_apply,
    shapeCast_self, hz]

/-- The third body's block, entry `(p, n)`: stage O's row of rows `p` of the loaded `H` and `x` blocks and the whole
    of `b`. The payload takes its operands in the order the body loads them. -/
theorem pay2_apply (x0 : Vec Ideal S200x10000 .f32) (x1 : Vec Ideal S10000x64 .f32) (x4 : Vec Ideal S64x128 .f32)
    (x7 : Vec Ideal S1x128 .f32) (x11 : Vec Ideal S200x128 .f32) (x13 : Vec Ideal S128x40 .f32)
    (x16 : Vec Ideal S1x40 .f32) (p : Fin 200) (n : Fin 40) :
    k2_pay1 (F := Ideal) x0 x1 x4 x7 x11 x13 x16 (ix2 p n)
      = rowO (fun l => x0 (ix2 p l)) (fun l q => x1 (ix2 l q)) (fun k => x11 (ix2 p k))
          (fun q k => x4 (ix2 q k)) (fun k => x7 (ix2 (0 : Fin 1) k)) (fun k n => x13 (ix2 k n))
          (fun n => x16 (ix2 (0 : Fin 1) n)) n := by
  unfold k2_pay1 rowO
  simp only [addf_apply, mm_200_128_40, mm_200_64_128, mm_200_10000_64, broadcastTo_row_apply, shapeCast_self]

end Cert.Hgnn

end
-- ==== Proof.Region0.lean ====
import proofs.«148248_g13365938225258_cont_week2b_87_3_alg».proof.Proof.Gen.KernelIdeal.Frame
import proofs.«148248_g13365938225258_cont_week2b_87_3_alg».proof.Proof.Payloads
import Idealize.ShloMosaic.Lib.Pipeline.Value

/-!
# The first launch: the array it leaves is stage A of the arrays it finds

The launch walks five row blocks of 2000 rows. At point `t` it reads rows `2000 t … 2000 t + 1999` of `x` and the whole of
the four small operands, and writes rows `2000 t … 2000 t + 1999` of the result. Entry `(p, n)` of the written block is
stage A's row function of row `p` of the `x` block, which is row `2000 t + p` of `x`: the block is the restriction of
`stageA` to its rows. The five blocks cover all 10000 rows, so the array after the launch IS `stageA`.
Stated for any contents `V` of the buffers at the launch's entry.
-/

set_option maxRecDepth 16384

noncomputable section

namespace Cert.Hgnn

open Idealize.ShloMosaic Idealize.ShloMosaic.ValueIdx Idealize.ShloMosaic.TcCoe Idealize.SL.Sem
open Cert.KernelIdeal Cert.KernelIdeal.Gen
open Idealize.ShloMosaic.Pipeline (Dat Cfg Window)

theorem hz2 : (![0, 0] : Fin 2 → Nat) = fun _ => 0 := funext fun a => by fin_cases a <;> rfl

/-- A block entry over variables: if row `p` of the loaded `x` block is row `i 0` of `X`, the other loaded operands are
    the whole arrays, and `i` has column `n`, the stored entry `(p, n)` is `stageA` at `i`. -/
theorem block0_eq (x0 : Vec Ideal S2000x128 .f32) (x1 : Vec Ideal S128x64 .f32) (x2 : Vec Ideal S1x64 .f32)
    (x3 : Vec Ideal S64x64 .f32) (x4 : Vec Ideal S1x64 .f32)
    (X : Arr 10000 128) (WDT : Arr 128 64) (BD : Arr 1 64) (W1 : Arr 64 64) (B1 : Arr 1 64)
    (p : Fin 2000) (n : Fin 64) (i : S10000x64.Idx)
    (h0 : ∀ l : Fin 128, x0 (ix2 p l) = X (ix2 (i 0) l))
    (h1 : x1 = WDT) (h2 : x2 = BD) (h3 : x3 = W1) (h4 : x4 = B1) (hc : (i 1).val = n.val) :
    k0_pay1 (F := Ideal) x0 x1 x2 x3 x4 (ix2 p n) = stageA X WDT BD W1 B1 i := by
  subst h1 h2 h3 h4
  have hn : i 1 = n := Fin.ext hc
  rw [pay0_apply]
  unfold stageA
  rw [hn]
  simp only [h0]

section
variable (V : (c : Dev nD) → (b : Ref sig .tc) → Buf (Elt Ideal) ((c : Thread nD τ).loc b))

/-- The index maps, decided over the grid: the `x` window and the output window sit at block row `t`, the four small
    operands at the origin. -/
theorem idx_facts0 : ∀ t : Fin cfg0.N, win0_0.index t = ![t.val, 0] ∧ win0_5.index t = ![t.val, 0]
    ∧ win0_1.index t = ![0, 0] ∧ win0_2.index t = ![0, 0] ∧ win0_3.index t = ![0, 0] ∧ win0_4.index t = ![0, 0] :=
  (by decide +kernel : ∀ t : Fin grid0.N, _)

/-- What point `t` writes back is block `t` of `stageA` of the arrays as the launch finds them. -/
theorem flushed0_eq (c : Dev nD) (t : Fin cfg0.N) :
    (dat0 V c).flushed 5 t = ((cfg0.win 5).blk t).view.read (Elt Ideal)
      (stageA (V c main_arg0) (V c main_v0) (V c main_v3) (V c main_arg4) (V c main_v4)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x64) hz2,
    View.ld_unit_zero (S := S1x64) hz2, View.ld_unit_zero (S := S64x64) hz2]
  obtain ⟨e0, e5, e1, e2, e3, e4⟩ := idx_facts0 t
  funext j
  obtain ⟨p, n, rfl⟩ : ∃ (p : Fin 2000) (n : Fin 64), j = ix2 p n := ⟨j 0, j 1, eq_ix2 j⟩
  refine block0_eq _ _ _ _ _ _ _ _ _ _ p n (((cfg0.win 5).blk t).view.emb (ix2 p n)) ?_ ?_ ?_ ?_ ?_ ?_
  · intro l
    show V c main_arg0 (((cfg0.win 0).blk t).view.emb (ix2 p l)) = _
    refine congrArg _ (funext fun a => Fin.ext ?_)
    match a with
    | ⟨0, _⟩ =>
      show win0_0.index t (0 : Fin 2) * 2000 + 1 * p.val = win0_5.index t (0 : Fin 2) * 2000 + 1 * p.val
      rw [e0, e5]
    | ⟨1, _⟩ =>
      show win0_0.index t (1 : Fin 2) * 128 + 1 * l.val = l.val
      rw [e0]; show 0 * 128 + 1 * l.val = l.val; omega
  · funext y
    show V c main_v0 (((cfg0.win 1).blk t).view.emb y) = V c main_v0 y
    refine congrArg _ (funext fun a => Fin.ext ?_)
    match a with
    | ⟨0, _⟩ => show win0_1.index t (0 : Fin 2) * 128 + 1 * (y 0).val = (y 0).val; rw [e1]; show 0 * 128 + 1 * (y 0).val = _; omega
    | ⟨1, _⟩ => show win0_1.index t (1 : Fin 2) * 64 + 1 * (y 1).val = (y 1).val; rw [e1]; show 0 * 64 + 1 * (y 1).val = _; omega
  · funext y
    show V c main_v3 (((cfg0.win 2).blk t).view.emb y) = V c main_v3 y
    refine congrArg _ (funext fun a => Fin.ext ?_)
    match a with
    | ⟨0, _⟩ => show win0_2.index t (0 : Fin 2) * 1 + 1 * (y 0).val = (y 0).val; rw [e2]; show 0 * 1 + 1 * (y 0).val = _; omega
    | ⟨1, _⟩ => show win0_2.index t (1 : Fin 2) * 64 + 1 * (y 1).val = (y 1).val; rw [e2]; show 0 * 64 + 1 * (y 1).val = _; omega
  · funext y
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; rw [e3]; show 0 * 64 + 1 * (y 0).val = _; omega
    | ⟨1, _⟩ => show win0_3.index t (1 : Fin 2) * 64 + 1 * (y 1).val = (y 1).val; rw [e3]; show 0 * 64 + 1 * (y 1).val = _; omega
  · funext y
    show V c main_v4 (((cfg0.win 4).blk t).view.emb y) = V c main_v4 y
    refine congrArg _ (funext fun a => Fin.ext ?_)
    match a with
    | ⟨0, _⟩ => show win0_4.index t (0 : Fin 2) * 1 + 1 * (y 0).val = (y 0).val; rw [e4]; show 0 * 1 + 1 * (y 0).val = _; omega
    | ⟨1, _⟩ => show win0_4.index t (1 : Fin 2) * 64 + 1 * (y 1).val = (y 1).val; rw [e4]; show 0 * 64 + 1 * (y 1).val = _; omega
  · show win0_5.index t (1 : Fin 2) * 64 + 1 * n.val = n.val
    rw [e5]; show 0 * 64 + 1 * n.val = n.val; omega

/-- An index of the result array is in point `t`'s block iff each coordinate is in the block's range on its axis. -/
theorem mem_blk0 (t : Fin cfg0.N) (i : S10000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v8).slice (win0_5.rect t)).set ↔ _
  rw [View.set_slice_whole, Rect.mem_set_unit]
  exact Iff.rfl

/-- Row `r` lies in the block of point `r / 2000`. -/
theorem cover0 (i : S10000x64.Idx) :
    ∃ t : Fin cfg0.N, (cfg0.win 5).flush t = true ∧ i ∈ ((cfg0.win 5).blk t).view.set := by
  have hi0 : (i 0).val < 10000 := (i 0).isLt
  have hi1 : (i 1).val < 64 := (i 1).isLt
  have hN : (i 0).val / 2000 < grid0.N := by rw [N_0]; omega
  refine ⟨⟨(i 0).val / 2000, hN⟩, flush0_5 _, ?_⟩
  obtain ⟨-, e5, -⟩ := idx_facts0 ⟨(i 0).val / 2000, hN⟩
  rw [mem_blk0]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e5]; show (i 0).val / 2000 * 2000 ≤ (i 0).val ∧ (i 0).val < (i 0).val / 2000 * 2000 + 2000; omega
  | ⟨1, _⟩ =>
    show win0_5.index ⟨(i 0).val / 2000, hN⟩ (1 : Fin 2) * 64 ≤ (i 1).val
      ∧ (i 1).val < win0_5.index ⟨(i 0).val / 2000, hN⟩ (1 : Fin 2) * 64 + 64
    rw [e5]; show 0 * 64 ≤ (i 1).val ∧ (i 1).val < 0 * 64 + 64; omega

/-- The result array after the first launch: `stageA` of the arrays the launch finds. -/
theorem region0_value (c : Dev nD) :
    (dat0 V c).arrAt 5 cfg0.N
      = stageA (V c main_arg0) (V c main_v0) (V c main_v3) (V c main_arg4) (V c main_v4) :=
  (dat0 V c).arrAt_eq_of_cover 5 _ (fun t _ => flushed0_eq V c t) cover0

end

end Cert.Hgnn

end
-- ==== Proof.Region1.lean ====
import proofs.«148248_g13365938225258_cont_week2b_87_3_alg».proof.Proof.Gen.KernelIdeal.Frame
import proofs.«148248_g13365938225258_cont_week2b_87_3_alg».proof.Proof.Payloads
import proofs.«148248_g13365938225258_cont_week2b_87_3_alg».proof.Proof.Region0
import Idealize.ShloMosaic.Lib.Pipeline.Value

/-!
# The second launch: the array it leaves is stage B of the arrays it finds

Fifty row blocks of 200 rows. At point `t` the launch reads rows `200 t … 200 t + 199` of `H`, the whole of `a` and of the
two small operands, and writes the same rows of the result: entry `(p, n)` of the block is stage B's row function of row
`200 t + p` of `H` against all of `a`. The blocks cover the 10000 rows.
-/

set_option maxRecDepth 16384

noncomputable section

namespace Cert.Hgnn

open Idealize.ShloMosaic Idealize.ShloMosaic.ValueIdx Idealize.ShloMosaic.TcCoe Idealize.SL.Sem
open Cert.KernelIdeal Cert.KernelIdeal.Gen
open Idealize.ShloMosaic.Pipeline (Dat Cfg Window)

/-- A coordinate of a block that sits at the origin of its array is the coordinate inside the block. -/
local macro "origin_coord " e:ident : tactic => `(tactic| (rw [$e:ident]; show 0 * _ + 1 * _ = _; omega))

/-- A block entry over variables: row `p` of the loaded `H` block is row `i 0` of `H`, the other loaded operands are the
    whole arrays, and `i` has column `n`. -/
theorem block1_eq (x0 : Vec Ideal S200x10000 .f32) (x1 : Vec Ideal S10000x64 .f32) (x2 : Vec Ideal S64x64 .f32)
    (x3 : Vec Ideal S1x64 .f32) (H : Arr 10000 10000) (A : Arr 10000 64) (W2 : Arr 64 64) (B2 : Arr 1 64)
    (p : Fin 200) (n : Fin 64) (i : S10000x64.Idx)
    (h0 : ∀ l : Fin 10000, x0 (ix2 p l) = H (ix2 (i 0) l))
    (h1 : x1 = A) (h2 : x2 = W2) (h3 : x3 = B2) (hc : (i 1).val = n.val) :
    k1_pay1 (F := Ideal) x0 x1 x2 x3 (ix2 p n) = stageB H A W2 B2 i := by
  subst h1 h2 h3
  have hn : i 1 = n := Fin.ext hc
  rw [pay1_apply]
  unfold stageB
  rw [hn]
  simp only [h0]

section
variable (V : (c : Dev nD) → (b : Ref sig .tc) → Buf (Elt Ideal) ((c : Thread nD τ).loc b))

/-- The index maps, decided over the grid: the `H` window and the output window sit at block row `t`, the other
    operands at the origin. -/
theorem idx_facts1 : ∀ t : Fin cfg1.N, win1_0.index t = ![t.val, 0] ∧ win1_4.index t = ![t.val, 0]
    ∧ win1_1.index t = ![0, 0] ∧ win1_2.index t = ![0, 0] ∧ win1_3.index t = ![0, 0] :=
  (by decide +kernel : ∀ t : Fin grid1.N, _)

/-- What point `t` writes back is block `t` of `stageB` of the arrays as the launch finds them. -/
theorem flushed1_eq (c : Dev nD) (t : Fin cfg1.N) :
    (dat1 V c).flushed 4 t = ((cfg1.win 4).blk t).view.read (Elt Ideal)
      (stageB (V c main_arg1) (V c main_v8) (V c main_arg6) (V c main_v5)) := by
  show (cfg1.win 4).cut (grid1.coords t) ((dat1 V c).after 4 t) = _
  rw [after1_4]
  unfold out1_4
  rw [View.canon_unit_zero hz2]
  simp only [View.ld_unit_zero (S := S200x10000) hz2, View.ld_unit_zero (S := S10000x64) hz2,
    View.ld_unit_zero (S := S64x64) hz2, View.ld_unit_zero (S := S1x64) hz2]
  obtain ⟨e0, e4, e1, e2, e3⟩ := idx_facts1 t
  funext j
  obtain ⟨p, n, rfl⟩ : ∃ (p : Fin 200) (n : Fin 64), j = ix2 p n := ⟨j 0, j 1, eq_ix2 j⟩
  refine block1_eq _ _ _ _ _ _ _ _ p n (((cfg1.win 4).blk t).view.emb (ix2 p n)) ?_ ?_ ?_ ?_ ?_
  · -- row p of the H block is row 200 t + p of H, the output block's row
    intro l
    show V c main_arg1 (((cfg1.win 0).blk t).view.emb (ix2 p l)) = _
    refine congrArg _ (funext fun a => Fin.ext ?_)
    match a with
    | ⟨0, _⟩ =>
      show win1_0.index t (0 : Fin 2) * 200 + 1 * p.val = win1_4.index t (0 : Fin 2) * 200 + 1 * p.val
      rw [e0, e4]
    | ⟨1, _⟩ => show win1_0.index t (1 : Fin 2) * 10000 + 1 * l.val = l.val; origin_coord e0
  · -- the whole of a
    funext y
    show V c main_v8 (((cfg1.win 1).blk t).view.emb y) = V c main_v8 y
    refine congrArg _ (funext fun a => Fin.ext ?_)
    match a with
    | ⟨0, _⟩ => show win1_1.index t (0 : Fin 2) * 10000 + 1 * (y 0).val = (y 0).val; origin_coord e1
    | ⟨1, _⟩ => show win1_1.index t (1 : Fin 2) * 64 + 1 * (y 1).val = (y 1).val; origin_coord e1
  · -- the whole of W2
    funext y
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; origin_coord e2
    | ⟨1, _⟩ => show win1_2.index t (1 : Fin 2) * 64 + 1 * (y 1).val = (y 1).val; origin_coord e2
  · -- the bias row
    funext y
    show V c main_v5 (((cfg1.win 3).blk t).view.emb y) = V c main_v5 y
    refine congrArg _ (funext fun a => Fin.ext ?_)
    match a with
    | ⟨0, _⟩ => show win1_3.index t (0 : Fin 2) * 1 + 1 * (y 0).val = (y 0).val; origin_coord e3
    | ⟨1, _⟩ => show win1_3.index t (1 : Fin 2) * 64 + 1 * (y 1).val = (y 1).val; origin_coord e3
  · -- the output block keeps the column
    show win1_4.index t (1 : Fin 2) * 64 + 1 * n.val = n.val
    origin_coord e4

/-- An index of the result array is in point `t`'s block iff each coordinate is in the block's range on its axis. -/
theorem mem_blk1 (t : Fin cfg1.N) (i : S10000x64.Idx) :
    i ∈ ((cfg1.win 4).blk t).view.set ↔ ∀ a : Fin 2, win1_4.index t a * S200x64.size a ≤ (i a).val
      ∧ (i a).val < win1_4.index t a * S200x64.size a + S200x64.size a := by
  show i ∈ ((View.whole main_v9).slice (win1_4.rect t)).set ↔ _
  rw [View.set_slice_whole, Rect.mem_set_unit]
  exact Iff.rfl

/-- Row `r` lies in the block of point `r / 200`. -/
theorem cover1 (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have hN : (i 0).val / 200 < grid1.N := by rw [N_1]; omega
  refine ⟨⟨(i 0).val / 200, hN⟩, flush1_4 _, ?_⟩
  obtain ⟨-, e4, -⟩ := idx_facts1 ⟨(i 0).val / 200, hN⟩
  rw [mem_blk1]
  intro a
  match a with
  | ⟨0, _⟩ =>
    show win1_4.index ⟨(i 0).val / 200, hN⟩ (0 : Fin 2) * 200 ≤ (i 0).val
      ∧ (i 0).val < win1_4.index ⟨(i 0).val / 200, hN⟩ (0 : Fin 2) * 200 + 200
    rw [e4]; show (i 0).val / 200 * 200 ≤ (i 0).val ∧ (i 0).val < (i 0).val / 200 * 200 + 200; omega
  | ⟨1, _⟩ =>
    show win1_4.index ⟨(i 0).val / 200, hN⟩ (1 : Fin 2) * 64 ≤ (i 1).val
      ∧ (i 1).val < win1_4.index ⟨(i 0).val / 200, hN⟩ (1 : Fin 2) * 64 + 64
    rw [e4]; show 0 * 64 ≤ (i 1).val ∧ (i 1).val < 0 * 64 + 64; omega

/-- The result array after the second launch: `stageB` of the arrays the launch finds. -/
theorem region1_value (c : Dev nD) :
    (dat1 V c).arrAt 4 cfg1.N = stageB (V c main_arg1) (V c main_v8) (V c main_arg6) (V c main_v5) :=
  (dat1 V c).arrAt_eq_of_cover 4 _ (fun t _ => flushed1_eq V c t) cover1

end

end Cert.Hgnn

end
-- ==== Proof.Region2.lean ====
import proofs.«148248_g13365938225258_cont_week2b_87_3_alg».proof.Proof.Gen.KernelIdeal.Frame
import proofs.«148248_g13365938225258_cont_week2b_87_3_alg».proof.Proof.Payloads
import proofs.«148248_g13365938225258_cont_week2b_87_3_alg».proof.Proof.Region0
import Idealize.ShloMosaic.Lib.Pipeline.Value

/-!
# The third launch: the array it leaves is stage O of the arrays it finds

Fifty row blocks of 200 rows. At point `t` the launch reads rows `200 t … 200 t + 199` of `H` and of `x`, the whole of
`b` and of the four small operands, and writes the same rows of the result: entry `(p, n)` of the block is stage O's row
function of rows `200 t + p` of `H` and `x` against all of `b`. The blocks cover the 10000 rows.
-/

set_option maxRecDepth 16384

noncomputable section

namespace Cert.Hgnn

open Idealize.ShloMosaic Idealize.ShloMosaic.ValueIdx Idealize.ShloMosaic.TcCoe Idealize.SL.Sem
open Cert.KernelIdeal Cert.KernelIdeal.Gen
open Idealize.ShloMosaic.Pipeline (Dat Cfg Window)

/-- A coordinate of a block that sits at the origin of its array is the coordinate inside the block. -/
local macro "origin_coord " e:ident : tactic => `(tactic| (rw [$e:ident]; show 0 * _ + 1 * _ = _; omega))

/-- A block entry over variables: rows `p` of the loaded `H` and `x` blocks are rows `i 0` of `H` and `X`, the other
    loaded operands are the whole arrays, and `i` has column `n`. The body's store takes its operands in the order it
    loads them: the up projection's two operands before the `x` block. -/
theorem block2_eq (x0 : Vec Ideal S200x10000 .f32) (x1 : Vec Ideal S10000x64 .f32) (x2 : Vec Ideal S200x128 .f32)
    (x3 : Vec Ideal S64x128 .f32) (x4 : Vec Ideal S1x128 .f32) (x5 : Vec Ideal S128x40 .f32) (x6 : Vec Ideal S1x40 .f32)
    (H : Arr 10000 10000) (B : Arr 10000 64) (X : Arr 10000 128) (WUT : Arr 64 128) (BU : Arr 1 128)
    (WCT : Arr 128 40) (BC : Arr 1 40) (p : Fin 200) (n : Fin 40) (i : S10000x40.Idx)
    (h0 : ∀ l : Fin 10000, x0 (ix2 p l) = H (ix2 (i 0) l))
    (h2 : ∀ k : Fin 128, x2 (ix2 p k) = X (ix2 (i 0) k))
    (h1 : x1 = B) (h3 : x3 = WUT) (h4 : x4 = BU) (h5 : x5 = WCT) (h6 : x6 = BC) (hc : (i 1).val = n.val) :
    k2_pay1 (F := Ideal) x0 x1 x3 x4 x2 x5 x6 (ix2 p n) = stageO H B X WUT BU WCT BC i := by
  subst h1 h3 h4 h5 h6
  have hn : i 1 = n := Fin.ext hc
  rw [pay2_apply]
  unfold stageO
  rw [hn]
  simp only [h0, h2]

section
variable (V : (c : Dev nD) → (b : Ref sig .tc) → Buf (Elt Ideal) ((c : Thread nD τ).loc b))

/-- The index maps, decided over the grid: the `H`, `x` and output windows sit at block row `t`, the other operands at
    the origin. -/
theorem idx_facts2 : ∀ t : Fin cfg2.N, win2_0.index t = ![t.val, 0] ∧ win2_2.index t = ![t.val, 0]
    ∧ win2_7.index t = ![t.val, 0] ∧ win2_1.index t = ![0, 0] ∧ win2_3.index t = ![0, 0] ∧ win2_4.index t = ![0, 0]
    ∧ win2_5.index t = ![0, 0] ∧ win2_6.index t = ![0, 0] :=
  (by decide +kernel : ∀ t : Fin grid2.N, _)

/-- What point `t` writes back is block `t` of `stageO` of the arrays as the launch finds them. -/
theorem flushed2_eq (c : Dev nD) (t : Fin cfg2.N) :
    (dat2 V c).flushed 7 t = ((cfg2.win 7).blk t).view.read (Elt Ideal)
      (stageO (V c main_arg1) (V c main_v9) (V c main_arg0) (V c main_v1) (V c main_v6) (V c main_v2) (V c main_v7)) := by
  show (cfg2.win 7).cut (grid2.coords t) ((dat2 V c).after 7 t) = _
  rw [after2_7]
  unfold out2_7
  rw [View.canon_unit_zero hz2]
  simp only [View.ld_unit_zero (S := S200x10000) hz2, View.ld_unit_zero (S := S10000x64) hz2,
    View.ld_unit_zero (S := S200x128) hz2, View.ld_unit_zero (S := S64x128) hz2, View.ld_unit_zero (S := S1x128) hz2,
    View.ld_unit_zero (S := S128x40) hz2, View.ld_unit_zero (S := S1x40) hz2]
  obtain ⟨e0, e2, e7, e1, e3, e4, e5, e6⟩ := idx_facts2 t
  funext j
  obtain ⟨p, n, rfl⟩ : ∃ (p : Fin 200) (n : Fin 40), j = ix2 p n := ⟨j 0, j 1, eq_ix2 j⟩
  refine block2_eq _ _ _ _ _ _ _ _ _ _ _ _ _ _ p n (((cfg2.win 7).blk t).view.emb (ix2 p n)) ?_ ?_ ?_ ?_ ?_ ?_ ?_ ?_
  · -- row p of the H block is row 200 t + p of H, the output block's row
    intro l
    show V c main_arg1 (((cfg2.win 0).blk t).view.emb (ix2 p l)) = _
    refine congrArg _ (funext fun a => Fin.ext ?_)
    match a with
    | ⟨0, _⟩ =>
      show win2_0.index t (0 : Fin 2) * 200 + 1 * p.val = win2_7.index t (0 : Fin 2) * 200 + 1 * p.val
      rw [e0, e7]
    | ⟨1, _⟩ => show win2_0.index t (1 : Fin 2) * 10000 + 1 * l.val = l.val; origin_coord e0
  · -- row p of the x block is row 200 t + p of x
    intro k
    show V c main_arg0 (((cfg2.win 2).blk t).view.emb (ix2 p k)) = _
    refine congrArg _ (funext fun a => Fin.ext ?_)
    match a with
    | ⟨0, _⟩ =>
      show win2_2.index t (0 : Fin 2) * 200 + 1 * p.val = win2_7.index t (0 : Fin 2) * 200 + 1 * p.val
      rw [e2, e7]
    | ⟨1, _⟩ => show win2_2.index t (1 : Fin 2) * 128 + 1 * k.val = k.val; origin_coord e2
  · -- the whole of b
    funext y
    show V c main_v9 (((cfg2.win 1).blk t).view.emb y) = V c main_v9 y
    refine congrArg _ (funext fun a => Fin.ext ?_)
    match a with
    | ⟨0, _⟩ => show win2_1.index t (0 : Fin 2) * 10000 + 1 * (y 0).val = (y 0).val; origin_coord e1
    | ⟨1, _⟩ => show win2_1.index t (1 : Fin 2) * 64 + 1 * (y 1).val = (y 1).val; origin_coord e1
  · -- the whole of Wuᵀ
    funext y
    show V c main_v1 (((cfg2.win 3).blk t).view.emb y) = V c main_v1 y
    refine congrArg _ (funext fun a => Fin.ext ?_)
    match a with
    | ⟨0, _⟩ => show win2_3.index t (0 : Fin 2) * 64 + 1 * (y 0).val = (y 0).val; origin_coord e3
    | ⟨1, _⟩ => show win2_3.index t (1 : Fin 2) * 128 + 1 * (y 1).val = (y 1).val; origin_coord e3
  · -- the up projection's bias row
    funext y
    show V c main_v6 (((cfg2.win 4).blk t).view.emb y) = V c main_v6 y
    refine congrArg _ (funext fun a => Fin.ext ?_)
    match a with
    | ⟨0, _⟩ => show win2_4.index t (0 : Fin 2) * 1 + 1 * (y 0).val = (y 0).val; origin_coord e4
    | ⟨1, _⟩ => show win2_4.index t (1 : Fin 2) * 128 + 1 * (y 1).val = (y 1).val; origin_coord e4
  · -- the whole of Wcᵀ
    funext y
    show V c main_v2 (((cfg2.win 5).blk t).view.emb y) = V c main_v2 y
    refine congrArg _ (funext fun a => Fin.ext ?_)
    match a with
    | ⟨0, _⟩ => show win2_5.index t (0 : Fin 2) * 128 + 1 * (y 0).val = (y 0).val; origin_coord e5
    | ⟨1, _⟩ => show win2_5.index t (1 : Fin 2) * 40 + 1 * (y 1).val = (y 1).val; origin_coord e5
  · -- the classifier's bias row
    funext y
    show V c main_v7 (((cfg2.win 6).blk t).view.emb y) = V c main_v7 y
    refine congrArg _ (funext fun a => Fin.ext ?_)
    match a with
    | ⟨0, _⟩ => show win2_6.index t (0 : Fin 2) * 1 + 1 * (y 0).val = (y 0).val; origin_coord e6
    | ⟨1, _⟩ => show win2_6.index t (1 : Fin 2) * 40 + 1 * (y 1).val = (y 1).val; origin_coord e6
  · -- the output block keeps the column
    show win2_7.index t (1 : Fin 2) * 40 + 1 * n.val = n.val
    origin_coord e7

/-- An index of the result array is in point `t`'s block iff each coordinate is in the block's range on its axis. -/
theorem mem_blk2 (t : Fin cfg2.N) (i : S10000x40.Idx) :
    i ∈ ((cfg2.win 7).blk t).view.set ↔ ∀ a : Fin 2, win2_7.index t a * S200x40.size a ≤ (i a).val
      ∧ (i a).val < win2_7.index t a * S200x40.size a + S200x40.size a := by
  show i ∈ ((View.whole main_v10).slice (win2_7.rect t)).set ↔ _
  rw [View.set_slice_whole, Rect.mem_set_unit]
  exact Iff.rfl

/-- Row `r` lies in the block of point `r / 200`. -/
theorem cover2 (i : S10000x40.Idx) :
    ∃ t : Fin cfg2.N, (cfg2.win 7).flush t = true ∧ i ∈ ((cfg2.win 7).blk t).view.set := by
  have hi0 : (i 0).val < 10000 := (i 0).isLt
  have hi1 : (i 1).val < 40 := (i 1).isLt
  have hN : (i 0).val / 200 < grid2.N := by rw [N_2]; omega
  refine ⟨⟨(i 0).val / 200, hN⟩, flush2_7 _, ?_⟩
  obtain ⟨-, -, e7, -⟩ := idx_facts2 ⟨(i 0).val / 200, hN⟩
  rw [mem_blk2]
  intro a
  match a with
  | ⟨0, _⟩ =>
    show win2_7.index ⟨(i 0).val / 200, hN⟩ (0 : Fin 2) * 200 ≤ (i 0).val
      ∧ (i 0).val < win2_7.index ⟨(i 0).val / 200, hN⟩ (0 : Fin 2) * 200 + 200
    rw [e7]; show (i 0).val / 200 * 200 ≤ (i 0).val ∧ (i 0).val < (i 0).val / 200 * 200 + 200; omega
  | ⟨1, _⟩ =>
    show win2_7.index ⟨(i 0).val / 200, hN⟩ (1 : Fin 2) * 40 ≤ (i 1).val
      ∧ (i 1).val < win2_7.index ⟨(i 0).val / 200, hN⟩ (1 : Fin 2) * 40 + 40
    rw [e7]; show 0 * 40 ≤ (i 1).val ∧ (i 1).val < 0 * 40 + 40; omega

/-- The result array after the third launch: `stageO` of the arrays the launch finds. -/
theorem region2_value (c : Dev nD) :
    (dat2 V c).arrAt 7 cfg2.N
      = stageO (V c main_arg1) (V c main_v9) (V c main_arg0) (V c main_v1) (V c main_v6) (V c main_v2) (V c main_v7) :=
  (dat2 V c).arrAt_eq_of_cover 7 _ (fun t _ => flushed2_eq V c t) cover2

end

end Cert.Hgnn

end
-- ==== Proof.KernelValue.lean ====
import proofs.«148248_g13365938225258_cont_week2b_87_3_alg».proof.Proof.Region1
import proofs.«148248_g13365938225258_cont_week2b_87_3_alg».proof.Proof.Region2
import proofs.«148248_g13365938225258_cont_week2b_87_3_alg».proof.Proof.KernelRun
import Idealize.ShloMosaic.Lib.StableHlo.Run
import Idealize.ShloMosaic.PureOps.Ideal

/-!
# The kernel program's result as a function of its arguments

The program is eight host operations (three transposes of weight matrices, five reshapes of bias vectors to rows), then
the three launches. Walking the buffer contents back from the return: the result is stage O of what the third launch
finds; of those, `b` is stage B of what the second launch finds; of those, `a` is stage A of what the first launch finds;
every other operand is an argument as launched, or a host operation's result, which no launch writes.
-/

set_option maxRecDepth 16384

noncomputable section

namespace Cert.Hgnn

open Idealize.ShloMosaic Idealize.ShloMosaic.ValueIdx Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg)

/-! ## The host operations' results, as the first launch finds them -/

theorem W1_v0 (c : Dev nD) : W1 m ρ c (Proc.devRef .tc main_v0)
    = transpose S128x64 [1, 0] (m ((c : Thread nD τ).loc main_arg2)) transposes_S64x128_S128x64_1_0 := by
  dsimp only [W1, W0, hostOps0]; after_results <;> rfl
theorem W1_v1 (c : Dev nD) : W1 m ρ c (Proc.devRef .tc main_v1)
    = transpose S64x128 [1, 0] (m ((c : Thread nD τ).loc main_arg8)) transposes_S128x64_S64x128_1_0 := by
  dsimp only [W1, W0, hostOps0]; after_results <;> rfl
theorem W1_v2 (c : Dev nD) : W1 m ρ c (Proc.devRef .tc main_v2)
    = transpose S128x40 [1, 0] (m ((c : Thread nD τ).loc main_arg10)) transposes_S40x128_S128x40_1_0 := by
  dsimp only [W1, W0, hostOps0]; after_results <;> rfl
theorem W1_v3 (c : Dev nD) : W1 m ρ c (Proc.devRef .tc main_v3)
    = shapeCast S1x64 (m ((c : Thread nD τ).loc main_arg3)) shapeCasts_S64_S1x64 := by
  dsimp only [W1, W0, hostOps0]; after_results <;> rfl
theorem W1_v4 (c : Dev nD) : W1 m ρ c (Proc.devRef .tc main_v4)
    = shapeCast S1x64 (m ((c : Thread nD τ).loc main_arg5)) shapeCasts_S64_S1x64 := by
  dsimp only [W1, W0, hostOps0]; after_results <;> rfl
theorem W1_v5 (c : Dev nD) : W1 m ρ c (Proc.devRef .tc main_v5)
    = shapeCast S1x64 (m ((c : Thread nD τ).loc main_arg7)) shapeCasts_S64_S1x64 := by
  dsimp only [W1, W0, hostOps0]; after_results <;> rfl
theorem W1_v6 (c : Dev nD) : W1 m ρ c (Proc.devRef .tc main_v6)
    = shapeCast S1x128 (m ((c : Thread nD τ).loc main_arg9)) shapeCasts_S128_S1x128 := by
  dsimp only [W1, W0, hostOps0]; after_results <;> rfl
theorem W1_v7 (c : Dev nD) : W1 m ρ c (Proc.devRef .tc main_v7)
    = shapeCast S1x40 (m ((c : Thread nD τ).loc main_arg11)) shapeCasts_S40_S1x40 := by
  dsimp only [W1, W0, hostOps0]; after_results <;> rfl

/-! ## One step back through a launch: an operand the launch only reads, and a buffer it does not touch -/

/-- An input window's array is after the third launch what it was before it. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))
/-- An input window's array is after the second launch what it was before it. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- An input window's array is after the first launch what it was before it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-! ## The arguments and host results, as each launch finds them -/

theorem W1_arg0 (c : Dev nD) : W1 m ρ c (Proc.devRef .tc main_arg0) = m ((c : Thread nD τ).loc main_arg0) := by
  dsimp only [W1, W0, hostOps0]; after_results <;> rfl
theorem W1_arg1 (c : Dev nD) : W1 m ρ c (Proc.devRef .tc main_arg1) = m ((c : Thread nD τ).loc main_arg1) := by
  dsimp only [W1, W0, hostOps0]; after_results <;> rfl
theorem W1_arg4 (c : Dev nD) : W1 m ρ c (Proc.devRef .tc main_arg4) = m ((c : Thread nD τ).loc main_arg4) := by
  dsimp only [W1, W0, hostOps0]; after_results <;> rfl
theorem W1_arg6 (c : Dev nD) : W1 m ρ c (Proc.devRef .tc main_arg6) = m ((c : Thread nD τ).loc main_arg6) := by
  dsimp only [W1, W0, hostOps0]; after_results <;> rfl

/-- The first launch does not touch `H`, `W2`, nor the host results the later launches read. -/
theorem W2_arg1 (c : Dev nD) : W2 m ρ c (Proc.devRef .tc main_arg1) = m ((c : Thread nD τ).loc main_arg1) :=
  (W2_of_ne m ρ c main_arg1 (by decide)).trans (W1_arg1 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v5 (c : Dev nD) : W2 m ρ c (Proc.devRef .tc main_v5)
    = shapeCast S1x64 (m ((c : Thread nD τ).loc main_arg7)) shapeCasts_S64_S1x64 :=
  (W2_of_ne m ρ c main_v5 (by decide)).trans (W1_v5 m ρ c)
/-- It reads `x` through its first window. -/
theorem W2_arg0 (c : Dev nD) : W2 m ρ c (Proc.devRef .tc main_arg0) = m ((c : Thread nD τ).loc main_arg0) :=
  (W2_in m ρ c 0 rfl).trans (W1_arg0 m ρ c)

/-- Stage A's operands as the first launch finds them, and its result as it leaves it. -/
def kA (c : Dev nD) : Arr 10000 64 :=
  stageA (m ((c : Thread nD τ).loc main_arg0))
    (transpose S128x64 [1, 0] (m ((c : Thread nD τ).loc main_arg2)) transposes_S64x128_S128x64_1_0)
    (shapeCast S1x64 (m ((c : Thread nD τ).loc main_arg3)) shapeCasts_S64_S1x64)
    (m ((c : Thread nD τ).loc main_arg4))
    (shapeCast S1x64 (m ((c : Thread nD τ).loc main_arg5)) shapeCasts_S64_S1x64)

theorem W2_v8 (c : Dev nD) : W2 m ρ c (Proc.devRef .tc main_v8) = kA m c := by
  refine (W2_arr m ρ c 5).trans ((region0_value (V1 m ρ) c).trans ?_)
  show stageA (W1 m ρ c (Proc.devRef .tc main_arg0)) (W1 m ρ c (Proc.devRef .tc main_v0))
    (W1 m ρ c (Proc.devRef .tc main_v3)) (W1 m ρ c (Proc.devRef .tc main_arg4)) (W1 m ρ c (Proc.devRef .tc main_v4)) = _
  rw [W1_arg0, W1_v0, W1_v3, W1_arg4, W1_v4]
  rfl

/-- Stage B's result as the second launch leaves it. -/
def kB (c : Dev nD) : Arr 10000 64 :=
  stageB (m ((c : Thread nD τ).loc main_arg1)) (kA m c) (m ((c : Thread nD τ).loc main_arg6))
    (shapeCast S1x64 (m ((c : Thread nD τ).loc main_arg7)) shapeCasts_S64_S1x64)

theorem W3_v9 (c : Dev nD) : W3 m ρ c (Proc.devRef .tc main_v9) = kB m c := by
  refine (W3_arr m ρ c 4).trans ((region1_value (V2 m ρ) c).trans ?_)
  show stageB (W2 m ρ c (Proc.devRef .tc main_arg1)) (W2 m ρ c (Proc.devRef .tc main_v8))
    (W2 m ρ c (Proc.devRef .tc main_arg6)) (W2 m ρ c (Proc.devRef .tc main_v5)) = _
  rw [W2_arg1, W2_v8, W2_arg6, W2_v5]
  rfl

/-- The second launch reads `H` through its first window and does not touch `x` nor the host results the third
    launch reads. -/
theorem W3_arg1 (c : Dev nD) : W3 m ρ c (Proc.devRef .tc main_arg1) = m ((c : Thread nD τ).loc main_arg1) :=
  (W3_in m ρ c 0 rfl).trans (W2_arg1 m ρ c)
theorem W3_arg0 (c : Dev nD) : W3 m ρ c (Proc.devRef .tc main_arg0) = m ((c : Thread nD τ).loc main_arg0) :=
  (W3_of_ne m ρ c main_arg0 (by decide)).trans (W2_arg0 m ρ c)
theorem W3_v1 (c : Dev nD) : W3 m ρ c (Proc.devRef .tc main_v1)
    = transpose S64x128 [1, 0] (m ((c : Thread nD τ).loc main_arg8)) transposes_S128x64_S64x128_1_0 :=
  (W3_of_ne m ρ c main_v1 (by decide)).trans ((W2_of_ne m ρ c main_v1 (by decide)).trans (W1_v1 m ρ c))
theorem W3_v6 (c : Dev nD) : W3 m ρ c (Proc.devRef .tc main_v6)
    = shapeCast S1x128 (m ((c : Thread nD τ).loc main_arg9)) shapeCasts_S128_S1x128 :=
  (W3_of_ne m ρ c main_v6 (by decide)).trans ((W2_of_ne m ρ c main_v6 (by decide)).trans (W1_v6 m ρ c))
theorem W3_v2 (c : Dev nD) : W3 m ρ c (Proc.devRef .tc main_v2)
    = transpose S128x40 [1, 0] (m ((c : Thread nD τ).loc main_arg10)) transposes_S40x128_S128x40_1_0 :=
  (W3_of_ne m ρ c main_v2 (by decide)).trans ((W2_of_ne m ρ c main_v2 (by decide)).trans (W1_v2 m ρ c))
theorem W3_v7 (c : Dev nD) : W3 m ρ c (Proc.devRef .tc main_v7)
    = shapeCast S1x40 (m ((c : Thread nD τ).loc main_arg11)) shapeCasts_S40_S1x40 :=
  (W3_of_ne m ρ c main_v7 (by decide)).trans ((W2_of_ne m ρ c main_v7 (by decide)).trans (W1_v7 m ρ c))

/-- The whole network on the kernel program's operands: the weights transposed and the biases reshaped by the host. -/
def kOut (c : Dev nD) : Arr 10000 40 :=
  stageO (m ((c : Thread nD τ).loc main_arg1)) (kB m c) (m ((c : Thread nD τ).loc main_arg0))
    (transpose S64x128 [1, 0] (m ((c : Thread nD τ).loc main_arg8)) transposes_S128x64_S64x128_1_0)
    (shapeCast S1x128 (m ((c : Thread nD τ).loc main_arg9)) shapeCasts_S128_S1x128)
    (transpose S128x40 [1, 0] (m ((c : Thread nD τ).loc main_arg10)) transposes_S40x128_S128x40_1_0)
    (shapeCast S1x40 (m ((c : Thread nD τ).loc main_arg11)) shapeCasts_S40_S1x40)

/-- The result buffer at the return holds the network's value. -/
theorem W4_v10 (c : Dev nD) : W4 m ρ c (Proc.devRef .tc main_v10) = kOut m c := by
  refine (W4_arr m ρ c 7).trans ((region2_value (V3 m ρ) c).trans ?_)
  show stageO (W3 m ρ c (Proc.devRef .tc main_arg1)) (W3 m ρ c (Proc.devRef .tc main_v9))
    (W3 m ρ c (Proc.devRef .tc main_arg0)) (W3 m ρ c (Proc.devRef .tc main_v1)) (W3 m ρ c (Proc.devRef .tc main_v6))
    (W3 m ρ c (Proc.devRef .tc main_v2)) (W3 m ρ c (Proc.devRef .tc main_v7)) = _
  rw [W3_arg1, W3_v9, W3_arg0, W3_v1, W3_v6, W3_v2, W3_v7]
  rfl

/-! ## The run -/

/-- Every weakly fair execution of the kernel program ends with the result buffer at the network's value and the
    arguments as launched. -/
theorem kernel_run : θ_run defs (onTc (τ := τ) (main (F := Ideal))) ⟨m, fun _ => 0, ρ⟩ (fun r => ∀ c : Dev nD,
      r.2.mem ((c.tc : Thread nD τ).loc main_v10) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_v10 m ρ c), (h c).2⟩)
    (Cert.KernelIdeal.Named.run_named (F := Ideal) m ρ)

end Cert.Hgnn

end
-- ==== Proof.RefValue.lean ====
import proofs.«148248_g13365938225258_cont_week2b_87_3_alg».proof.Proof.Gen.ReferenceIdeal.Read
import proofs.«148248_g13365938225258_cont_week2b_87_3_alg».proof.Proof.Spec

/-!
# The reference computes the same three stages

The reference applies, to whole arrays, the operations the kernel program applies to row blocks: each matrix product
read at an entry is the sum over the contracted coordinate, each bias vector `[n]`, broadcast to a row and then down
the rows, adds its entry `n`, and the rectifier is `max · 0` against a broadcast zero. So its value after the first
bias-add of `· W1` is stage A, after the bias-add of `· W2` stage B of that, and at the return stage O of that — with
the weight matrices transposed as the kernel program's host operations transpose them, and each bias vector read as the
row `[1, n]` the kernel program reshapes it to.
-/

noncomputable section

namespace Cert.Hgnn

open Idealize.ShloMosaic Idealize.ShloMosaic.ValueIdx Idealize.ShloMosaic.TcCoe
open Cert.ReferenceIdeal Cert.ReferenceIdeal.Gen Cert.ReferenceIdeal.Read

/-- A vector `[n]` viewed as the row `[1, n]` reads, at `(u, k)`, the vector's entry `k`. -/
theorem shapeCast_row_apply {α : Type} {n : ℕ} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_apply x h _ _ (by
    have hu : u.val = 0 := by omega
    rw [Shape.rowMajor_val_one, Shape.rowMajor_val_two]
    show k.val = u.val * n + k.val
    rw [hu, Nat.zero_mul, Nat.zero_add])

variable (x0 : (⟨S10000x128, .f32⟩ : BufTy).Contents (Elt Ideal)) (x1 : (⟨S10000x10000, .f32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S128x64, .f32⟩ : BufTy).Contents (Elt Ideal)) (x9 : (⟨S128, .f32⟩ : BufTy).Contents (Elt Ideal))
  (x10 : (⟨S40x128, .f32⟩ : BufTy).Contents (Elt Ideal)) (x11 : (⟨S40, .f32⟩ : BufTy).Contents (Elt Ideal))
  -- the reshapes of the bias vectors to rows are the kernel program's: their side conditions are hypotheses here
  (h64 : S64.ShapeCasts S1x64) (h128 : S128.ShapeCasts S1x128) (h40 : S40.ShapeCasts S1x40)

/-- The reference's value after `(x · Wdᵀ + bd) · W1 + b1` is stage A. -/
theorem ref_stageA : val_main_v8 (F := Ideal) x0 x2 x3 x4 x5
    = stageA x0 (transpose S128x64 [1, 0] x2 transposes_S64x128_S128x64_1_0) (shapeCast S1x64 x3 h64)
        x4 (shapeCast S1x64 x5 h64) := by
  funext i
  obtain ⟨p, n, rfl⟩ : ∃ (p : Fin 10000) (n : Fin 64), i = ix2 p n := ⟨i 0, i 1, eq_ix2 i⟩
  have eL5 : ∀ k : Fin 64, lidx_main_v5 (ix2 p n) k = ix2 p k := fun k => funext fun a => by
    match a with
    | ⟨0, _⟩ => rfl
    | ⟨1, _⟩ => rfl
  have eR5 : ∀ k : Fin 64, ridx_main_v5 (ix2 p n) k = ix2 k n := fun k => funext fun a => by
    match a with
    | ⟨0, _⟩ => rfl
    | ⟨1, _⟩ => rfl
  have eL1 : ∀ (k : Fin 64) (l : Fin 128), lidx_main_v1 (ix2 p k) l = ix2 p l := fun k l => funext fun a => by
    match a with
    | ⟨0, _⟩ => rfl
    | ⟨1, _⟩ => rfl
  have eR1 : ∀ (k : Fin 64) (l : Fin 128), ridx_main_v1 (ix2 p k) l = ix2 l k := fun k l => funext fun a => by
    match a with
    | ⟨0, _⟩ => rfl
    | ⟨1, _⟩ => rfl
  have eB3 : ∀ k : Fin 64, idx_main_v2 (idx_main_v3 (ix2 p k)) = ix1 k := fun k => funext fun a => by
    match a with
    | ⟨0, _⟩ => rfl
  have eB7 : idx_main_v6 (idx_main_v7 (ix2 p n)) = ix1 n := funext fun a => by
    match a with
    | ⟨0, _⟩ => rfl
  rw [val_main_v8_apply, val_main_v5_apply, val_main_v7_apply, val_main_v6_apply, eB7]
  simp only [eL5, eR5, val_main_v4_apply, val_main_v1_apply, val_main_v3_apply, val_main_v2_apply, eL1, eR1, eB3,
    Ideal.addf_def]
  unfold stageA rowA
  simp only [shapeCast_row_apply]
  rfl

/-- The reference's value after `max (H · a) 0 · W2 + b2` is stage B of its stage A. -/
theorem ref_stageB : val_main_v14 (F := Ideal) x0 x1 x2 x3 x4 x5 x6 x7
    = stageB x1 (val_main_v8 (F := Ideal) x0 x2 x3 x4 x5) x6 (shapeCast S1x64 x7 h64) := by
  funext i
  obtain ⟨p, n, rfl⟩ : ∃ (p : Fin 10000) (n : Fin 64), i = ix2 p n := ⟨i 0, i 1, eq_ix2 i⟩
  have eL11 : ∀ k : Fin 64, lidx_main_v11 (ix2 p n) k = ix2 p k := fun k => funext fun a => by
    match a with
    | ⟨0, _⟩ => rfl
    | ⟨1, _⟩ => rfl
  have eR11 : ∀ k : Fin 64, ridx_main_v11 (ix2 p n) k = ix2 k n := fun k => funext fun a => by
    match a with
    | ⟨0, _⟩ => rfl
    | ⟨1, _⟩ => rfl
  have eL9 : ∀ (k : Fin 64) (l : Fin 10000), lidx_main_v9 (ix2 p k) l = ix2 p l := fun k l => funext fun a => by
    match a with
    | ⟨0, _⟩ => rfl
    | ⟨1, _⟩ => rfl
  have eR9 : ∀ (k : Fin 64) (l : Fin 10000), ridx_main_v9 (ix2 p k) l = ix2 l k := fun k l => funext fun a => by
    match a with
    | ⟨0, _⟩ => rfl
    | ⟨1, _⟩ => rfl
  have eB13 : idx_main_v12 (idx_main_v13 (ix2 p n)) = ix1 n := funext fun a => by
    match a with
    | ⟨0, _⟩ => rfl
  rw [val_main_v14_apply, val_main_v11_apply, val_main_v13_apply, val_main_v12_apply, eB13]
  simp only [eL11, eR11, val_main_v10_apply, val_main_v9_apply, eL9, eR9, val_main_call0_v0_apply,
    val_main_call0_cst_apply, Ideal.addf_def, Ideal.maximumf_def, Ideal.ofBits_def, Ideal.ofBits_zero_f32]
  unfold stageB rowB
  simp only [shapeCast_row_apply]

/-- The reference's result is stage O of its stage B. -/
theorem ref_stageO : val_main_v26 (F := Ideal) x0 x1 x2 x3 x4 x5 x6 x7 x8 x9 x10 x11
    = stageO x1 (val_main_v14 (F := Ideal) x0 x1 x2 x3 x4 x5 x6 x7) x0
        (transpose S64x128 [1, 0] x8 transposes_S128x64_S64x128_1_0) (shapeCast S1x128 x9 h128)
        (transpose S128x40 [1, 0] x10 transposes_S40x128_S128x40_1_0) (shapeCast S1x40 x11 h40) := by
  funext i
  obtain ⟨p, n, rfl⟩ : ∃ (p : Fin 10000) (n : Fin 40), i = ix2 p n := ⟨i 0, i 1, eq_ix2 i⟩
  have eL23 : ∀ k : Fin 128, lidx_main_v23 (ix2 p n) k = ix2 p k := fun k => funext fun a => by
    match a with
    | ⟨0, _⟩ => rfl
    | ⟨1, _⟩ => rfl
  have eR23 : ∀ k : Fin 128, ridx_main_v23 (ix2 p n) k = ix2 k n := fun k => funext fun a => by
    match a with
    | ⟨0, _⟩ => rfl
    | ⟨1, _⟩ => rfl
  have eL17 : ∀ (k : Fin 128) (q : Fin 64), lidx_main_v17 (ix2 p k) q = ix2 p q := fun k q => funext fun a => by
    match a with
    | ⟨0, _⟩ => rfl
    | ⟨1, _⟩ => rfl
  have eR17 : ∀ (k : Fin 128) (q : Fin 64), ridx_main_v17 (ix2 p k) q = ix2 q k := fun k q => funext fun a => by
    match a with
    | ⟨0, _⟩ => rfl
    | ⟨1, _⟩ => rfl
  have eL15 : ∀ (q : Fin 64) (l : Fin 10000), lidx_main_v15 (ix2 p q) l = ix2 p l := fun q l => funext fun a => by
    match a with
    | ⟨0, _⟩ => rfl
    | ⟨1, _⟩ => rfl
  have eR15 : ∀ (q : Fin 64) (l : Fin 10000), ridx_main_v15 (ix2 p q) l = ix2 l q := fun q l => funext fun a => by
    match a with
    | ⟨0, _⟩ => rfl
    | ⟨1, _⟩ => rfl
  have eB19 : ∀ k : Fin 128, idx_main_v18 (idx_main_v19 (ix2 p k)) = ix1 k := fun k => funext fun a => by
    match a with
    | ⟨0, _⟩ => rfl
  have eB25 : idx_main_v24 (idx_main_v25 (ix2 p n)) = ix1 n := funext fun a => by
    match a with
    | ⟨0, _⟩ => rfl
  rw [val_main_v26_apply, val_main_v23_apply, val_main_v25_apply, val_main_v24_apply, eB25]
  simp only [eL23, eR23, val_main_v21_apply, val_main_v20_apply, val_main_v17_apply, eL17, eR17, val_main_v15_apply,
    eL15, eR15, val_main_v19_apply, val_main_v18_apply, eB19, Ideal.addf_def]
  unfold stageO rowO
  simp only [shapeCast_row_apply]
  rfl

/-- The reference's result as the three stages of its arguments. -/
theorem ref_value : val_main_v26 (F := Ideal) x0 x1 x2 x3 x4 x5 x6 x7 x8 x9 x10 x11
    = stageO x1
        (stageB x1
          (stageA x0 (transpose S128x64 [1, 0] x2 transposes_S64x128_S128x64_1_0)
            (shapeCast S1x64 x3 h64) x4 (shapeCast S1x64 x5 h64))
          x6 (shapeCast S1x64 x7 h64))
        x0 (transpose S64x128 [1, 0] x8 transposes_S128x64_S64x128_1_0) (shapeCast S1x128 x9 h128)
        (transpose S128x40 [1, 0] x10 transposes_S40x128_S128x40_1_0) (shapeCast S1x40 x11 h40) := by
  rw [ref_stageO x0 x1 x2 x3 x4 x5 x6 x7 x8 x9 x10 x11 h128 h40, ref_stageB x0 x1 x2 x3 x4 x5 x6 x7 h64,
    ref_stageA x0 x2 x3 x4 x5 h64]

end Cert.Hgnn

end
-- ==== Proof.lean ====
/- The kernel program and the reference compute the same network over the extended reals.

   The network: node features `x` (10000 × 128), a dense propagation matrix `H` (10000 × 10000), and
     a = (x · Wdᵀ + bd) · W1 + b1,   b = max (H · a) 0 · W2 + b2,   out = (x + ((H · b) · Wuᵀ + bu)) · Wcᵀ + bc.
   The reference applies these operations to whole arrays. The kernel program transposes the three weight matrices and
   reshapes the five bias vectors to rows on the host, then runs three launches, each over row blocks: five blocks of
   2000 rows for `a`, fifty of 200 rows for `b`, fifty of 200 rows for `out`. Row `i` of each stage depends on the
   row-blocked operands only through their row `i` (Proof/Spec.lean), so each written block is the restriction of the
   stage to its rows (Proof/Payloads.lean, Proof/Region0.lean … Region2.lean), the blocks cover the rows, and the
   array after a launch is the stage of the arrays it found; walking back through the three launches and the host
   operations gives the result as the three stages of the arguments (Proof/KernelValue.lean). The reference's
   operations read at an entry are the same sums, in the same order (Proof/RefValue.lean): no law of the extended
   reals beyond reading a matrix product as a sum is used, and the inputs' finiteness is not needed.
   The three frames are the generated ones; the idealization rewrote nothing. -/
import proofs.«148248_g13365938225258_cont_week2b_87_3_alg».proof.Defs
import proofs.«148248_g13365938225258_cont_week2b_87_3_alg».proof.Proof.Gen.Kernel
import proofs.«148248_g13365938225258_cont_week2b_87_3_alg».proof.Proof.Gen.Kernel.Skeleton
import proofs.«148248_g13365938225258_cont_week2b_87_3_alg».proof.Proof.Gen.Kernel.Launch
import proofs.«148248_g13365938225258_cont_week2b_87_3_alg».proof.Proof.Gen.Kernel.Points
import proofs.«148248_g13365938225258_cont_week2b_87_3_alg».proof.Proof.Gen.Kernel.Frame
import proofs.«148248_g13365938225258_cont_week2b_87_3_alg».proof.Proof.Gen.KernelIdeal
import proofs.«148248_g13365938225258_cont_week2b_87_3_alg».proof.Proof.Gen.KernelIdeal.Skeleton
import proofs.«148248_g13365938225258_cont_week2b_87_3_alg».proof.Proof.Gen.KernelIdeal.Launch
import proofs.«148248_g13365938225258_cont_week2b_87_3_alg».proof.Proof.Gen.KernelIdeal.Points
import proofs.«148248_g13365938225258_cont_week2b_87_3_alg».proof.Proof.Gen.KernelIdeal.Frame
import proofs.«148248_g13365938225258_cont_week2b_87_3_alg».proof.Proof.Gen.ReferenceIdeal
import proofs.«148248_g13365938225258_cont_week2b_87_3_alg».proof.Proof.Gen.Pre_finite_inputs
import proofs.«148248_g13365938225258_cont_week2b_87_3_alg».proof.Proof.Gen.ReferenceIdeal.Run
import proofs.«148248_g13365938225258_cont_week2b_87_3_alg».proof.Proof.Gen.ReferenceIdeal.Read
import proofs.«148248_g13365938225258_cont_week2b_87_3_alg».proof.Proof.KernelValue
import proofs.«148248_g13365938225258_cont_week2b_87_3_alg».proof.Proof.RefValue
import Idealize.ShloMosaic.Adequacy
import Idealize.ShloMosaic.Init

noncomputable section

namespace Cert.Proof

open Idealize.ShloMosaic Idealize.SL.Sem

/-- The kernel program as printed terminates without a fault and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's value of the arguments: the kernel program by the three launches' stages, the
    reference by its operations read at an entry; the arguments agree, and the two values are one term. -/
theorem algebraic : Cert.algebraic_KernelIdeal_ReferenceIdeal := by
  intro m ρ m' ρ' _ hagree
  refine ⟨fun c => Cert.Hgnn.kOut m c, Cert.Hgnn.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v26_eq,
    Cert.Hgnn.ref_value _ _ _ _ _ _ _ _ _ _ _ _ Cert.KernelIdeal.Gen.shapeCasts_S64_S1x64
      Cert.KernelIdeal.Gen.shapeCasts_S128_S1x128 Cert.KernelIdeal.Gen.shapeCasts_S40_S1x40,
    a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
